-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x100x512 : Shape := ⟨3, ![4, 100, 512]⟩
abbrev S1024x1024 : Shape := ⟨2, ![1024, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x512x512 .f32) (main_arg1 : FVec F S4x100x512 .f32) (main_arg2 : FVec F S1024x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x512x512 : Shape := ⟨3, ![4, 512, 512]⟩
abbrev S4x100x512 : Shape := ⟨3, ![4, 100, 512]⟩
abbrev S1024x1024 : Shape := ⟨2, ![1024, 1024]⟩
abbrev S1024x512 : Shape := ⟨2, ![1024, 512]⟩
abbrev S512x1024 : Shape := ⟨2, ![512, 1024]⟩
abbrev S2048x512 : Shape := ⟨2, ![2048, 512]⟩
abbrev S400x512 : Shape := ⟨2, ![400, 512]⟩
abbrev S2048x1024 : Shape := ⟨2, ![2048, 1024]⟩
abbrev S512x512 : Shape := ⟨2, ![512, 512]⟩
abbrev S400x1024 : Shape := ⟨2, ![400, 1024]⟩
abbrev S4x512x1024 : Shape := ⟨3, ![4, 512, 1024]⟩
abbrev S4x100x1024 : Shape := ⟨3, ![4, 100, 1024]⟩
abbrev S4x512x100x1024 : Shape := ⟨4, ![4, 512, 100, 1024]⟩
abbrev S1x16x1024 : Shape := ⟨3, ![1, 16, 1024]⟩
abbrev S1x100x1024 : Shape := ⟨3, ![1, 100, 1024]⟩
abbrev S1x16x100x1024 : Shape := ⟨4, ![1, 16, 100, 1024]⟩
abbrev S16x1024 : Shape := ⟨2, ![16, 1024]⟩
abbrev S100x1024 : Shape := ⟨2, ![100, 1024]⟩
abbrev S16x1x1024 : Shape := ⟨3, ![16, 1, 1024]⟩
abbrev S16x100x1024 : Shape := ⟨3, ![16, 100, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S1024x1024, .f32⟩
  | .hbm, ⟨3, _⟩ => ⟨S1024x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S2048x512, .f32⟩
  | .hbm, ⟨8, _⟩ => ⟨S400x512, .f32⟩
  | .hbm, ⟨9, _⟩ => ⟨S2048x1024, .f32⟩
  | .hbm, ⟨10, _⟩ => ⟨S400x1024, .f32⟩
  | .hbm, ⟨11, _⟩ => ⟨S4x512x1024, .f32⟩
  | .hbm, ⟨12, _⟩ => ⟨S4x100x1024, .f32⟩
  | .hbm, ⟨13, _⟩ => ⟨S4x512x100x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S400x512, .f32⟩
  | .local _ .vmem, ⟨6, _⟩ => ⟨S512x1024, .f32⟩
  | .local _ .vmem, ⟨7, _⟩ => ⟨S400x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x100x1024, .f32⟩
  | .local _ .vmem, ⟨11, _⟩ => ⟨S1x100x1024, .f32⟩
  | .local _ .vmem, ⟨12, _⟩ => ⟨S1x16x100x1024, .f32⟩
  | .local _ .vmem, ⟨13, _⟩ => ⟨S1x16x100x1024, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S400x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S400x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![4, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x100x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x16x100x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  shapeCasts_S4x512x512_S2048x512 : S4x512x512.ShapeCasts S2048x512
  shapeCasts_S4x100x512_S400x512 : S4x100x512.ShapeCasts S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x1024_S400x1024_0_0 : ∀ a, (![0, 0] : Fin 2 → Nat) a + S400x1024.size a ≤ S400x1024.size a
  h_S400x1024 : 0 < S400x1024.numel
  shapeCasts_S2048x1024_S4x512x1024 : S2048x1024.ShapeCasts S4x512x1024
  shapeCasts_S400x1024_S4x100x1024 : S400x1024.ShapeCasts S4x100x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x100x1024_S1x100x1024_0_0_0 : ∀ a, (![0, 0, 0] : Fin 3 → Nat) a + S1x100x1024.size a ≤ S1x100x1024.size a
  h_S1x100x1024 : 0 < S1x100x1024.numel
  shapeCasts_S1x100x1024_S100x1024 : S1x100x1024.ShapeCasts S100x1024
  shapeCasts_S16x1024_S16x1x1024 : S16x1024.ShapeCasts S16x1x1024
  shapeCasts_S100x1024_S1x100x1024 : S100x1024.ShapeCasts S1x100x1024
  broadcasts_S16x1x1024_S16x100x1024 : S16x1x1024.Broadcasts S16x100x1024
  broadcasts_S1x100x1024_S16x100x1024 : S1x100x1024.Broadcasts S16x100x1024
  inb_S1x16x100x1024_S1x16x100x1024_0_0_0_0 : ∀ a, (![0, 0, 0, 0] : Fin 4 → Nat) a + S1x16x100x1024.size a ≤ S1x16x100x1024.size a
  h_S1x16x100x1024 : 0 < S1x16x100x1024.numel
  shapeCasts_S1x16x100x1024_S16x100x1024 : S1x16x100x1024.ShapeCasts S16x100x1024
  shapeCasts_S16x100x1024_S1x16x100x1024 : S16x100x1024.ShapeCasts S1x16x100x1024
  dot_S512x512_S512x1024_S512x1024_1_0_0_1_n_n_wf : DotDims.WF S512x512 S512x1024 S512x1024 [1] [0] [0] [1] [] []
  dot_S400x512_S512x1024_S400x1024_1_0_0_1_n_n_wf : DotDims.WF S400x512 S512x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S400x512.size a
  hwx1_0 : ∀ i : grid1.Coords, EltTy.bits .f32 = 32 ∨ (Rect.block (s := S400x512) S400x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S400x1024.size a ≤ S400x1024.size a
  hwx1_2 : ∀ i : grid1.Coords, EltTy.bits .f32 = 32 ∨ (Rect.block (s := S400x1024) S400x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x1024.size a ≤ S4x512x1024.size a
  hwx2_0 : ∀ i : grid2.Coords, EltTy.bits .f32 = 32 ∨ (Rect.block (s := S4x512x1024) S1x16x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x1024.size a ≤ S4x100x1024.size a
  hwx2_1 : ∀ i : grid2.Coords, EltTy.bits .f32 = 32 ∨ (Rect.block (s := S4x100x1024) S1x100x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x100x1024.size a ≤ S4x512x100x1024.size a
  hwx2_2 : ∀ i : grid2.Coords, EltTy.bits .f32 = 32 ∨ (Rect.block (s := S4x512x100x1024) S1x16x100x1024.size (cc2_transform_2 i) (hinb2_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S400x512_S512x1024_S400x1024_1_0_0_1_n_n : DotDims S400x512 S512x1024 S400x1024 where
  lhsContracting := [1]
  rhsContracting := [0]
  lhsNonContracting := [0]
  rhsNonContracting := [1]
  lhsBatch := []
  rhsBatch := []
  wf := dot_S400x512_S512x1024_S400x1024_1_0_0_1_n_n_wf

abbrev win0_0 : Pipeline.Window sig grid0 :=
  Pipeline.Window.ofSpec (Memref.whole main_v4) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S400x512.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S400x1024.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1x16x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x100x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x16x100x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x512x512 : Shape := ⟨3, ![4, 512, 512]⟩
abbrev S4x100x512 : Shape := ⟨3, ![4, 100, 512]⟩
abbrev S1024x1024 : Shape := ⟨2, ![1024, 1024]⟩
abbrev S1024x512 : Shape := ⟨2, ![1024, 512]⟩
abbrev S4x512x1024 : Shape := ⟨3, ![4, 512, 1024]⟩
abbrev S4x100x1024 : Shape := ⟨3, ![4, 100, 1024]⟩
abbrev S4x512x1x1024 : Shape := ⟨4, ![4, 512, 1, 1024]⟩
abbrev S4x1x100x1024 : Shape := ⟨4, ![4, 1, 100, 1024]⟩
abbrev S4x512x100x1024 : Shape := ⟨4, ![4, 512, 100, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x100x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x512x1024, .f32⟩
  | .hbm, ⟨6, _⟩ => ⟨S4x100x1024, .f32⟩
  | .hbm, ⟨7, _⟩ => ⟨S4x512x1x1024, .f32⟩
  | .hbm, ⟨8, _⟩ => ⟨S4x1x100x1024, .f32⟩
  | .hbm, ⟨9, _⟩ => ⟨S4x512x100x1024, .f32⟩
  | .hbm, ⟨10, _⟩ => ⟨S4x512x100x1024, .f32⟩
  | .hbm, ⟨11, _⟩ => ⟨S4x512x100x1024, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x512x1024_S4x512x1x1024_0_1_3 : S4x512x1024.BroadcastsInDim S4x512x1x1024 (![0, 1, 3] : Fin 3 → Fin S4x512x1x1024.rank)
  bcast_S4x100x1024_S4x1x100x1024_0_2_3 : S4x100x1024.BroadcastsInDim S4x1x100x1024 (![0, 2, 3] : Fin 3 → Fin S4x1x100x1024.rank)
  bcast_S4x512x1x1024_S4x512x100x1024_0_1_2_3 : S4x512x1x1024.BroadcastsInDim S4x512x100x1024 (![0, 1, 2, 3] : Fin 4 → Fin S4x512x100x1024.rank)
  bcast_S4x1x100x1024_S4x512x100x1024_0_1_2_3 : S4x1x100x1024.BroadcastsInDim S4x512x100x1024 (![0, 1, 2, 3] : Fin 4 → Fin S4x512x100x1024.rank)
  dot_S4x512x512_S1024x512_S4x512x1024_2_1_01_0_n_n_wf : DotDims.WF S4x512x512 S1024x512 S4x512x1024 [2] [1] [0, 1] [0] [] []
  dot_S4x100x512_S1024x512_S4x100x1024_2_1_01_0_n_n_wf : DotDims.WF S4x100x512 S1024x512 S4x100x1024 [2] [1] [0, 1] [0] [] []

variable [Facts₀]

def dot_S4x512x512_S1024x512_S4x512x1024_2_1_01_0_n_n : DotDims S4x512x512 S1024x512 S4x512x1024 where
  lhsContracting := [2]
  rhsContracting := [1]
  lhsNonContracting := [0, 1]
  rhsNonContracting := [0]
  lhsBatch := []
  rhsBatch := []
  wf := dot_S4x512x512_S1024x512_S4x512x1024_2_1_01_0_n_n_wf
def dot_S4x100x512_S1024x512_S4x100x1024_2_1_01_0_n_n : DotDims S4x100x512 S1024x512 S4x100x1024 where
  lhsContracting := [2]
  rhsContracting := [1]
  lhsNonContracting := [0, 1]
  rhsNonContracting := [0]
  lhsBatch := []
  rhsBatch := []
  wf := dot_S4x100x512_S1024x512_S4x100x1024_2_1_01_0_n_n_wf

class Facts : Prop extends Facts₀ where

variable [Facts]
-- ==== Proof.JointSpec.lean ====
import Idealize.ShloMosaic.PureOps.Ideal.Laws
import Idealize.ShloMosaic.Lib.ValueIdx

/-!
  The joint network's result as ONE function of its three argument arrays.

  With B = 4, T = 512, U = 100, D = 512, C = 1024 the weight W is a C × 2D matrix whose left half of the columns
  multiplies the encoder's features and whose right half multiplies the decoder's:
    joint[b, t, u, c] = (Σ_{k<D} enc[b, t, k] · W[c, k]) + (Σ_{k<D} dec[b, u, k] · W[c, D + k]).
  Both programs compute this: the kernel as two row-blocked matrix products of the flattened features against the
  transposed halves of W followed by a broadcast sum, the reference as two contractions followed by the same sum.
-/

open scoped BigOperators

noncomputable section

namespace Cert.JointSpec

open Idealize.ShloMosaic Idealize.ShloMosaic.ValueIdx

/-- Column k of the weight's left half. -/
def lowCol (k : Fin 512) : Fin 1024 := ⟨k.val, by have := k.isLt; omega⟩
/-- Column k of the weight's right half. -/
def highCol (k : Fin 512) : Fin 1024 := ⟨512 + k.val, by have := k.isLt; omega⟩

/-- The encoder's projection: row (b, t) of the features against row c of the weight's left half. -/
def encProj (enc : (⟨3, ![4, 512, 512]⟩ : Shape).Idx → EReal) (W : (⟨2, ![1024, 1024]⟩ : Shape).Idx → EReal)
    (b : Fin 4) (t : Fin 512) (c : Fin 1024) : EReal :=
  ∑ k : Fin 512, enc (ix3 b t k) * W (ix2 c (lowCol k))

/-- The decoder's projection: row (b, u) of the features against row c of the weight's right half. -/
def decProj (dec : (⟨3, ![4, 100, 512]⟩ : Shape).Idx → EReal) (W : (⟨2, ![1024, 1024]⟩ : Shape).Idx → EReal)
    (b : Fin 4) (u : Fin 100) (c : Fin 1024) : EReal :=
  ∑ k : Fin 512, dec (ix3 b u k) * W (ix2 c (highCol k))

/-- The joint logits: the two projections summed over every pair (t, u). -/
def joint (enc : (⟨3, ![4, 512, 512]⟩ : Shape).Idx → EReal) (dec : (⟨3, ![4, 100, 512]⟩ : Shape).Idx → EReal)
    (W : (⟨2, ![1024, 1024]⟩ : Shape).Idx → EReal) : (⟨4, ![4, 512, 100, 1024]⟩ : Shape).Idx → EReal :=
  fun i => encProj enc W (i 0) (i 1) (i 3) + decProj dec W (i 0) (i 2) (i 3)

theorem joint_apply (enc : (⟨3, ![4, 512, 512]⟩ : Shape).Idx → EReal) (dec : (⟨3, ![4, 100, 512]⟩ : Shape).Idx → EReal)
    (W : (⟨2, ![1024, 1024]⟩ : Shape).Idx → EReal) (b : Fin 4) (t : Fin 512) (u : Fin 100) (c : Fin 1024) :
    joint enc dec W (ix4 b t u c) = encProj enc W b t c + decProj dec W b u c := rfl

/-- Row r of the flattened encoder features is row (r / 512, r % 512). -/
def encRow (r : Fin 2048) : Fin 4 × Fin 512 :=
  (⟨r.val / 512, by have := r.isLt; omega⟩, ⟨r.val % 512, Nat.mod_lt _ (by decide)⟩)
/-- Row r of the flattened decoder features is row (r / 100, r % 100). -/
def decRow (r : Fin 400) : Fin 4 × Fin 100 :=
  (⟨r.val / 100, by have := r.isLt; omega⟩, ⟨r.val % 100, Nat.mod_lt _ (by decide)⟩)

/-- The flat row of the encoder's (b, t). -/
def encFlat (b : Fin 4) (t : Fin 512) : Fin 2048 := ⟨b.val * 512 + t.val, by have := b.isLt; have := t.isLt; omega⟩
/-- The flat row of the decoder's (b, u). -/
def decFlat (b : Fin 4) (u : Fin 100) : Fin 400 := ⟨b.val * 100 + u.val, by have := b.isLt; have := u.isLt; omega⟩

theorem encRow_encFlat (b : Fin 4) (t : Fin 512) : encRow (encFlat b t) = (b, t) := by
  have hb := b.isLt; have ht := t.isLt
  refine Prod.ext (Fin.ext ?_) (Fin.ext ?_)
  · show (b.val * 512 + t.val) / 512 = b.val; omega
  · show (b.val * 512 + t.val) % 512 = t.val; omega

theorem decRow_decFlat (b : Fin 4) (u : Fin 100) : decRow (decFlat b u) = (b, u) := by
  have hb := b.isLt; have hu := u.isLt
  refine Prod.ext (Fin.ext ?_) (Fin.ext ?_)
  · show (b.val * 100 + u.val) / 100 = b.val; omega
  · show (b.val * 100 + u.val) % 100 = u.val; omega

end Cert.JointSpec

end
-- ==== Proof.JointHost.lean ====
import proofs.«177077_j25082609008778_1_alg».proof.Proof.Gen.KernelIdeal.Frame
import proofs.«177077_j25082609008778_1_alg».proof.Proof.JointSpec
import Idealize.ShloMosaic.Lib.ValueLayout
import Idealize.ShloMosaic.Lib.StableHlo.Run

/-!
  What the first region finds: the host operations before it flatten the two feature arrays to matrices (row
  b·512 + t of the encoder's, row b·100 + u of the decoder's) and cut the weight into its left and right halves of
  columns, each transposed, so that entry (k, q) of a transposed half is W[q, k] resp. W[q, 512 + k].
-/

noncomputable section

namespace Cert.KernelIdeal.JointHost

open Cert.KernelIdeal Cert.KernelIdeal.Gen Cert.JointSpec
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The flattened encoder features are a reshape of the first argument. -/
theorem encFeat_eq (c : Dev nD) : (V1 m ρ c main_v4 : S2048x512.Idx → EReal)
    = shapeCast S2048x512 (m ((c : Thread nD τ).loc main_arg0)) shapeCasts_S4x512x512_S2048x512 := by
  show StableHlo.after hostOps0 (W0 m ρ c) (Proc.devRef .tc main_v4) = _
  after_results
  rfl

/-- The flattened decoder features are a reshape of the second argument. -/
theorem decFeat_eq (c : Dev nD) : (V1 m ρ c main_v5 : S400x512.Idx → EReal)
    = shapeCast S400x512 (m ((c : Thread nD τ).loc main_arg1)) shapeCasts_S4x100x512_S400x512 := by
  show StableHlo.after hostOps0 (W0 m ρ c) (Proc.devRef .tc main_v5) = _
  after_results
  rfl

/-- The encoder's weight half is the transposed left-column slice of the third argument. -/
theorem encWeight_eq (c : Dev nD) : (V1 m ρ c main_v1 : S512x1024.Idx → EReal)
    = transpose S512x1024 [1, 0] (extractStridedSlice S1024x512 ![0, 0] (m ((c : Thread nD τ).loc main_arg2)) slices_S1024x1024_S1024x512_0_0) transposes_S1024x512_S512x1024_1_0 := by
  show StableHlo.after hostOps0 (W0 m ρ c) (Proc.devRef .tc main_v1) = _
  after_results

/-- The decoder's weight half is the transposed right-column slice of the third argument. -/
theorem decWeight_eq (c : Dev nD) : (V1 m ρ c main_v3 : S512x1024.Idx → EReal)
    = transpose S512x1024 [1, 0] (extractStridedSlice S1024x512 ![0, 512] (m ((c : Thread nD τ).loc main_arg2)) slices_S1024x1024_S1024x512_0_512) transposes_S1024x512_S512x1024_1_0 := by
  show StableHlo.after hostOps0 (W0 m ρ c) (Proc.devRef .tc main_v3) = _
  after_results

/-- Row r of the flattened encoder features is row (r / 512, r % 512) of the argument. -/
theorem encFeat_apply (c : Dev nD) (r : Fin 2048) (k : Fin 512) :
    V1 m ρ c main_v4 (ix2 r k) = m ((c : Thread nD τ).loc main_arg0) (ix3 (encRow r).1 (encRow r).2 k) := by
  have hr := r.isLt; have hk := k.isLt
  refine (congrFun (encFeat_eq m ρ c) (ix2 r k)).trans ?_
  refine shapeCast_apply _ _ (ix2 r k) (ix3 (encRow r).1 (encRow r).2 k) ?_
  rw [Shape.rowMajor_val_three, Shape.rowMajor_val_two]
  show ((r.val / 512) * 512 + r.val % 512) * 512 + k.val = r.val * 512 + k.val
  omega

/-- Row r of the flattened decoder features is row (r / 100, r % 100) of the argument. -/
theorem decFeat_apply (c : Dev nD) (r : Fin 400) (k : Fin 512) :
    V1 m ρ c main_v5 (ix2 r k) = m ((c : Thread nD τ).loc main_arg1) (ix3 (decRow r).1 (decRow r).2 k) := by
  have hr := r.isLt; have hk := k.isLt
  refine (congrFun (decFeat_eq m ρ c) (ix2 r k)).trans ?_
  refine shapeCast_apply _ _ (ix2 r k) (ix3 (decRow r).1 (decRow r).2 k) ?_
  rw [Shape.rowMajor_val_three, Shape.rowMajor_val_two]
  show ((r.val / 100) * 100 + r.val % 100) * 512 + k.val = r.val * 512 + k.val
  omega

/-- Entry (k, q) of the encoder's weight half is the weight at (q, k). -/
theorem encWeight_apply (c : Dev nD) (k : Fin 512) (q : Fin 1024) :
    V1 m ρ c main_v1 (ix2 k q) = m ((c : Thread nD τ).loc main_arg2) (ix2 q (lowCol k)) := by
  refine (congrFun (encWeight_eq m ρ c) (ix2 k q)).trans ?_
  refine (transpose_ix2_apply _ _ k q).trans ?_
  exact slice2_axis1_apply 0 _ _ q k (lowCol k) (by show k.val = 0 + k.val; omega)

/-- Entry (k, q) of the decoder's weight half is the weight at (q, 512 + k). -/
theorem decWeight_apply (c : Dev nD) (k : Fin 512) (q : Fin 1024) :
    V1 m ρ c main_v3 (ix2 k q) = m ((c : Thread nD τ).loc main_arg2) (ix2 q (highCol k)) := by
  refine (congrFun (decWeight_eq m ρ c) (ix2 k q)).trans ?_
  refine (transpose_ix2_apply _ _ k q).trans ?_
  exact slice2_axis1_apply 512 _ _ q k (highCol k) rfl

end Cert.KernelIdeal.JointHost

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.JointPayload.lean ====
import proofs.«177077_j25082609008778_1_alg».proof.Proof.Gen.KernelIdeal.Skeleton
import proofs.«177077_j25082609008778_1_alg».proof.Proof.LibPlainDot
import Idealize.ShloMosaic.Lib.Pipeline.Value
import Idealize.ShloMosaic.Lib.ValueIdx
import Idealize.ShloMosaic.PureOps.Ideal.Laws

/-!
  What each of the three kernel bodies stores, read entry by entry at the ideal values.

  The two projection bodies store the matrix product of the two loaded blocks (the narrowing of the operands to bf16
  is the identity on the reals): entry (p, q) is the sum over k of x(p, k) · w(k, q). The third body stores, at
  (t, u, q) of its one-batch block, the sum of row t of the first loaded block and row u of the second, both at lane q.
-/

open scoped BigOperators

noncomputable section

namespace Cert.KernelIdeal.JointPayload

open Cert.KernelIdeal Cert.KernelIdeal.Gen Idealize.ShloMosaic Idealize.ShloMosaic.ValueIdx

/-- The encoder projection's block: a 512 × 512 block of rows against the whole 512 × 1024 weight half. -/
theorem proj0_apply (x0 : Vec Ideal S512x512 .f32) (x1 : Vec Ideal S512x1024 .f32) (p : Fin 512) (q : Fin 1024) :
    k0_pay1 (F := Ideal) x0 x1 (ix2 p q) = ∑ k : Fin 512, x0 (ix2 p k) * x1 (ix2 k q) := by
  unfold k0_pay1
  refine (Cert.Lib.PlainDot.matmul_zero_apply dot_S512x512_S512x1024_S512x1024_1_0_0_1_n_n rfl rfl rfl rfl rfl rfl none _ _ p q).trans ?_
  refine Finset.sum_congr rfl fun k _ => ?_
  rw [truncf_apply, truncf_apply, shapeCast_self, shapeCast_self]

/-- The decoder projection's block: all 400 rows against the whole 512 × 1024 weight half. -/
theorem proj1_apply (x0 : Vec Ideal S400x512 .f32) (x1 : Vec Ideal S512x1024 .f32) (p : Fin 400) (q : Fin 1024) :
    k1_pay1 (F := Ideal) x0 x1 (ix2 p q) = ∑ k : Fin 512, x0 (ix2 p k) * x1 (ix2 k q) := by
  unfold k1_pay1
  refine (Cert.Lib.PlainDot.matmul_zero_apply dot_S400x512_S512x1024_S400x1024_1_0_0_1_n_n rfl rfl rfl rfl rfl rfl none _ _ p q).trans ?_
  refine Finset.sum_congr rfl fun k _ => ?_
  rw [truncf_apply, truncf_apply, shapeCast_self, shapeCast_self]

/-- The broadcast sum's block: entry (t, u, q) adds row t of the encoder block and row u of the decoder block. -/
theorem sum_apply (x0 : Vec Ideal S1x16x1024 .f32) (x1 : Vec Ideal S1x100x1024 .f32)
    (p : Fin 1) (t : Fin 16) (u : Fin 100) (q : Fin 1024) :
    k2_pay1 (F := Ideal) x0 x1 (ix4 p t u q) = x0 (ix3 0 t q) + x1 (ix3 0 u q) := by
  have hp : p.val = 0 := by have := p.isLt; omega
  have ht := t.isLt; have hu := u.isLt; have hq := q.isLt
  unfold k2_pay1
  refine (shapeCast_apply _ _ (ix4 p t u q) (ix3 t u q) ?_).trans ?_
  · rw [Shape.rowMajor_val_three, Shape.rowMajor_val_four]
    show (t.val * 100 + u.val) * 1024 + q.val = ((p.val * 16 + t.val) * 100 + u.val) * 1024 + q.val
    rw [hp]; omega
  rw [addf_apply]
  refine congrArg₂ (fun (a b : EReal) => a + b) ?_ ?_
  · refine (broadcastTo_apply _ _ (ix3 t u q) (ix3 t (0 : Fin 1) q) (fun a => ?_)).trans ?_
    · match a with
      | ⟨0, _⟩ => show t.val = if (16 : Nat) = 1 then 0 else t.val; rw [if_neg (by decide)]
      | ⟨1, _⟩ => show 0 = if (1 : Nat) = 1 then 0 else u.val; rw [if_pos rfl]
      | ⟨2, _⟩ => show q.val = if (1024 : Nat) = 1 then 0 else q.val; rw [if_neg (by decide)]
    refine (shapeCast_apply _ _ (ix3 t (0 : Fin 1) q) (ix2 t q) ?_).trans ?_
    · rw [Shape.rowMajor_val_two, Shape.rowMajor_val_three]
      show t.val * 1024 + q.val = (t.val * 1 + 0) * 1024 + q.val
      omega
    refine (shapeCast_apply _ _ (ix2 t q) (ix3 (0 : Fin 1) t q) ?_).trans rfl
    rw [Shape.rowMajor_val_two, Shape.rowMajor_val_three]
    show (0 * 16 + t.val) * 1024 + q.val = t.val * 1024 + q.val
    omega
  · refine (broadcastTo_apply _ _ (ix3 t u q) (ix3 (0 : Fin 1) u q) (fun a => ?_)).trans ?_
    · match a with
      | ⟨0, _⟩ => show 0 = if (1 : Nat) = 1 then 0 else t.val; rw [if_pos rfl]
      | ⟨1, _⟩ => show u.val = if (100 : Nat) = 1 then 0 else u.val; rw [if_neg (by decide)]
      | ⟨2, _⟩ => show q.val = if (1024 : Nat) = 1 then 0 else q.val; rw [if_neg (by decide)]
    refine (shapeCast_apply _ _ (ix3 (0 : Fin 1) u q) (ix2 u q) ?_).trans ?_
    · rw [Shape.rowMajor_val_two, Shape.rowMajor_val_three]
      show u.val * 1024 + q.val = (0 * 100 + u.val) * 1024 + q.val
      omega
    refine (shapeCast_apply _ _ (ix2 u q) (ix3 (0 : Fin 1) u q) ?_).trans rfl
    rw [Shape.rowMajor_val_two, Shape.rowMajor_val_three]
    show (0 * 100 + u.val) * 1024 + q.val = u.val * 1024 + q.val
    omega

end Cert.KernelIdeal.JointPayload

end
-- ==== Proof.JointProj0.lean ====
import proofs.«177077_j25082609008778_1_alg».proof.Proof.Gen.KernelIdeal.Frame
import proofs.«177077_j25082609008778_1_alg».proof.Proof.JointPayload

/-!
  The encoder projection's region, at any contents V of the buffers when the region is entered.

  Its grid has 4 points; point t loads rows [512·t, 512·t + 512) of the 2048 × 512 feature matrix and the whole
  512 × 1024 weight half, and writes back the same rows of the 2048 × 1024 product. The row blocks tile the result, so
  after the region the result array is the whole product: entry (r, q) is the sum over k of x(r, k) · w(k, q).
-/

set_option maxRecDepth 16384

open scoped BigOperators

noncomputable section

namespace Cert.KernelIdeal.JointProj0

open Cert.KernelIdeal Cert.KernelIdeal.Gen Cert.KernelIdeal.JointPayload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of a 2048 × 512 matrix and a 512 × 1024 matrix, entry by entry. -/
def matProd (x : S2048x512.Idx → EReal) (w : S512x1024.Idx → EReal) : S2048x1024.Idx → EReal :=
  fun i => ∑ k : Fin 512, x (ix2 (i 0) k) * w (ix2 k (i 1))

/-- The two arrays the region reads, as it finds them. -/
abbrev featArr (c : Dev nD) : S2048x512.Idx → EReal := V c main_v4
abbrev weightArr (c : Dev nD) : S512x1024.Idx → EReal := V c main_v1

theorem zero_offsets : (![0, 0] : Fin 2 → Nat) = fun _ => 0 := funext fun a => by fin_cases a <;> rfl

/-- The block indices over the grid: the feature window and the result window move together along the rows, every
    other block index is zero. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem block_onto : ∀ q0 : Fin 4, ∃ t : Fin cfg0.N, win0_2.index t = ![q0.val, 0] :=
  (by decide +kernel : ∀ q0 : Fin 4, ∃ t : Fin grid0.N, win0_2.index t = ![q0.val, 0])

/-- What point t writes back is its row block of the product of the two arrays the region finds. -/
theorem flushed_eq (c : Dev nD) (t : Fin cfg0.N) :
    (dat0 V c).flushed 2 t = ((cfg0.win 2).blk t).view.read (Elt Ideal) (matProd (featArr V c) (weightArr V c)) := by
  show (cfg0.win 2).cut (grid0.coords t) ((dat0 V c).after 2 t) = _
  rw [after0_2]
  unfold out0_2
  rw [View.canon_unit_zero zero_offsets]
  simp only [View.ld_unit_zero (S := S512x512) zero_offsets, View.ld_unit_zero (S := S512x1024) zero_offsets]
  obtain ⟨e0, e1, e2, e3, e4⟩ := block_indices t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (ix2 p q)
    = matProd (featArr V c) (weightArr V c) (((cfg0.win 2).blk t).view.emb (ix2 p q))
  refine (proj0_apply (iblk0 V c 0 t) (iblk0 V c 1 t) p q).trans ?_
  unfold matProd
  refine Finset.sum_congr rfl fun k _ => ?_
  show featArr V c (((cfg0.win 0).blk t).view.emb (ix2 p k)) * weightArr V c (((cfg0.win 1).blk t).view.emb (ix2 k q))
    = featArr V c (ix2 ((((cfg0.win 2).blk t).view.emb (ix2 p q)) 0) k) * weightArr V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 1024 + 1 * q.val = win0_2.index t (1 : Fin 2) * 1024 + 1 * q.val; omega
  rw [h0, h1]
  rfl

/-- An entry of the result is in point t's block iff its row is in the block's range (and its column anywhere). -/
theorem mem_block (t : Fin cfg0.N) (i : S2048x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v6).slice (win0_2.rect t)).set ↔ _
  rw [View.set_slice_whole, Rect.mem_set_unit]
  exact Iff.rfl

/-- The row blocks tile the result: row r is in block r / 512. -/
theorem covered (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the region its result array is the product of the two arrays it found. -/
theorem result_eq (c : Dev nD) : (dat0 V c).arrAt 2 cfg0.N = matProd (featArr V c) (weightArr V c) :=
  (dat0 V c).arrAt_eq_of_cover 2 _ (fun t _ => flushed_eq V c t) covered

end Cert.KernelIdeal.JointProj0

end
-- ==== Proof.JointProj1.lean ====
import proofs.«177077_j25082609008778_1_alg».proof.Proof.Gen.KernelIdeal.Frame
import proofs.«177077_j25082609008778_1_alg».proof.Proof.JointPayload

/-!
  The decoder projection's region, at any contents V of the buffers when the region is entered.

  Its grid has 1 point; point t loads rows [400·t, 400·t + 400) of the 400 × 512 feature matrix and the whole
  512 × 1024 weight half, and writes back the same rows of the 400 × 1024 product. The row blocks tile the result, so
  after the region the result array is the whole product: entry (r, q) is the sum over k of x(r, k) · w(k, q).
-/

set_option maxRecDepth 16384

open scoped BigOperators

noncomputable section

namespace Cert.KernelIdeal.JointProj1

open Cert.KernelIdeal Cert.KernelIdeal.Gen Cert.KernelIdeal.JointPayload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The product of a 400 × 512 matrix and a 512 × 1024 matrix, entry by entry. -/
def matProd (x : S400x512.Idx → EReal) (w : S512x1024.Idx → EReal) : S400x1024.Idx → EReal :=
  fun i => ∑ k : Fin 512, x (ix2 (i 0) k) * w (ix2 k (i 1))

/-- The two arrays the region reads, as it finds them. -/
abbrev featArr (c : Dev nD) : S400x512.Idx → EReal := V c main_v5
abbrev weightArr (c : Dev nD) : S512x1024.Idx → EReal := V c main_v3

theorem zero_offsets : (![0, 0] : Fin 2 → Nat) = fun _ => 0 := funext fun a => by fin_cases a <;> rfl

/-- The block indices over the grid: the feature window and the result window move together along the rows, every
    other block index is zero. -/
theorem block_indices : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block of the result is some point's. -/
theorem block_onto : ∀ q0 : Fin 1, ∃ t : Fin cfg1.N, win1_2.index t = ![q0.val, 0] :=
  (by decide +kernel : ∀ q0 : Fin 1, ∃ t : Fin grid1.N, win1_2.index t = ![q0.val, 0])

/-- What point t writes back is its row block of the product of the two arrays the region finds. -/
theorem flushed_eq (c : Dev nD) (t : Fin cfg1.N) :
    (dat1 V c).flushed 2 t = ((cfg1.win 2).blk t).view.read (Elt Ideal) (matProd (featArr V c) (weightArr V c)) := by
  show (cfg1.win 2).cut (grid1.coords t) ((dat1 V c).after 2 t) = _
  rw [after1_2]
  unfold out1_2
  rw [View.canon_unit_zero zero_offsets]
  simp only [View.ld_unit_zero (S := S400x512) zero_offsets, View.ld_unit_zero (S := S512x1024) zero_offsets]
  obtain ⟨e0, e1, e2, e3, e4⟩ := block_indices t
  funext j
  obtain ⟨p, q, rfl⟩ : ∃ (p : Fin 400) (q : Fin 1024), j = ix2 p q := ⟨j 0, j 1, eq_ix2 j⟩
  show k1_pay1 (F := Ideal) (iblk1 V c 0 t) (iblk1 V c 1 t) (ix2 p q)
    = matProd (featArr V c) (weightArr V c) (((cfg1.win 2).blk t).view.emb (ix2 p q))
  refine (proj1_apply (iblk1 V c 0 t) (iblk1 V c 1 t) p q).trans ?_
  unfold matProd
  refine Finset.sum_congr rfl fun k _ => ?_
  show featArr V c (((cfg1.win 0).blk t).view.emb (ix2 p k)) * weightArr V c (((cfg1.win 1).blk t).view.emb (ix2 k q))
    = featArr V c (ix2 ((((cfg1.win 2).blk t).view.emb (ix2 p q)) 0) k) * weightArr V c (ix2 k ((((cfg1.win 2).blk t).view.emb (ix2 p q)) 1))
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 400 + 1 * p.val = win1_2.index t (0 : Fin 2) * 400 + 1 * p.val; omega
    | ⟨1, _⟩ => show win1_0.index t (1 : Fin 2) * 512 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 512 + 1 * k.val = k.val; omega
    | ⟨1, _⟩ => show win1_1.index t (1 : Fin 2) * 1024 + 1 * q.val = win1_2.index t (1 : Fin 2) * 1024 + 1 * q.val; omega
  rw [h0, h1]
  rfl

/-- An entry of the result is in point t's block iff its row is in the block's range (and its column anywhere). -/
theorem mem_block (t : Fin cfg1.N) (i : S400x1024.Idx) :
    i ∈ ((cfg1.win 2).blk t).view.set ↔ ∀ a : Fin 2, win1_2.index t a * S400x1024.size a ≤ (i a).val
      ∧ (i a).val < win1_2.index t a * S400x1024.size a + S400x1024.size a := by
  show i ∈ ((View.whole main_v7).slice (win1_2.rect t)).set ↔ _
  rw [View.set_slice_whole, Rect.mem_set_unit]
  exact Iff.rfl

/-- The row blocks tile the result: row r is in block r / 400. -/
theorem covered (i : S400x1024.Idx) :
    ∃ t : Fin cfg1.N, (cfg1.win 2).flush t = true ∧ i ∈ ((cfg1.win 2).blk t).view.set := by
  have hi0 : (i 0).val < 400 := (i 0).isLt
  have hi1 : (i 1).val < 1024 := (i 1).isLt
  obtain ⟨t, ht⟩ := block_onto ⟨(i 0).val / 400, by omega⟩
  have q0 : win1_2.index t (0 : Fin 2) = (i 0).val / 400 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 1024 ≤ (i 1).val ∧ (i 1).val < win1_2.index t (1 : Fin 2) * 1024 + 1024; omega

/-- After the region its result array is the product of the two arrays it found. -/
theorem result_eq (c : Dev nD) : (dat1 V c).arrAt 2 cfg1.N = matProd (featArr V c) (weightArr V c) :=
  (dat1 V c).arrAt_eq_of_cover 2 _ (fun t _ => flushed_eq V c t) covered

end Cert.KernelIdeal.JointProj1

end
-- ==== Proof.JointAdd.lean ====
import proofs.«177077_j25082609008778_1_alg».proof.Proof.Gen.KernelIdeal.Frame
import proofs.«177077_j25082609008778_1_alg».proof.Proof.JointPayload

/-!
  The broadcast sum's region, at any contents V of the buffers when the region is entered.

  Its grid is 4 × 32: point (b, s) loads rows [16·s, 16·s + 16) of batch b of the encoder projection (4 × 512 × 1024)
  and all 100 rows of batch b of the decoder projection (4 × 100 × 1024), and writes back the 16 × 100 × 1024 block of
  pairwise sums. The blocks tile the 4 × 512 × 100 × 1024 result, so after the region entry (b, t, u, q) of the result is
  e(b, t, q) + d(b, u, q).
-/

set_option maxRecDepth 16384

noncomputable section

namespace Cert.KernelIdeal.JointAdd

open Cert.KernelIdeal Cert.KernelIdeal.Gen Cert.KernelIdeal.JointPayload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Every pair of a row of e and a row of d of the same batch, summed lane by lane. -/
def pairSum (e : S4x512x1024.Idx → EReal) (d : S4x100x1024.Idx → EReal) : S4x512x100x1024.Idx → EReal :=
  fun i => e (ix3 (i 0) (i 1) (i 3)) + d (ix3 (i 0) (i 2) (i 3))

/-- The two arrays the region reads, as it finds them. -/
abbrev encArr (c : Dev nD) : S4x512x1024.Idx → EReal := V c main_v8
abbrev decArr (c : Dev nD) : S4x100x1024.Idx → EReal := V c main_v9

theorem zero_offsets3 : (![0, 0, 0] : Fin 3 → Nat) = fun _ => 0 := funext fun a => by fin_cases a <;> rfl
theorem zero_offsets4 : (![0, 0, 0, 0] : Fin 4 → Nat) = fun _ => 0 := funext fun a => by fin_cases a <;> rfl

/-- The block indices over the grid: all three windows share the batch index, the encoder window and the result
    window share the row-block index, every other block index is zero. -/
theorem block_indices : ∀ t : Fin cfg2.N, win2_0.index t (0 : Fin 3) = win2_2.index t (0 : Fin 4)
    ∧ win2_0.index t (1 : Fin 3) = win2_2.index t (1 : Fin 4) ∧ win2_0.index t (2 : Fin 3) = 0
    ∧ win2_1.index t (0 : Fin 3) = win2_2.index t (0 : Fin 4) ∧ win2_1.index t (1 : Fin 3) = 0
    ∧ win2_1.index t (2 : Fin 3) = 0 ∧ win2_2.index t (2 : Fin 4) = 0 ∧ win2_2.index t (3 : Fin 4) = 0 :=
  (by decide +kernel : ∀ t : Fin grid2.N, _)

/-- Every (batch, row block) of the result is some point's. -/
theorem block_onto : ∀ (q0 : Fin 4) (q1 : Fin 32), ∃ t : Fin cfg2.N, win2_2.index t = ![q0.val, q1.val, 0, 0] :=
  (by decide +kernel : ∀ (q0 : Fin 4) (q1 : Fin 32), ∃ t : Fin grid2.N, win2_2.index t = ![q0.val, q1.val, 0, 0])

/-- What point t writes back is its block of the pairwise sums of the two arrays the region finds. -/
theorem flushed_eq (c : Dev nD) (t : Fin cfg2.N) :
    (dat2 V c).flushed 2 t = ((cfg2.win 2).blk t).view.read (Elt Ideal) (pairSum (encArr V c) (decArr V c)) := by
  show (cfg2.win 2).cut (grid2.coords t) ((dat2 V c).after 2 t) = _
  rw [after2_2]
  unfold out2_2
  rw [View.canon_unit_zero zero_offsets4]
  simp only [View.ld_unit_zero (S := S1x16x1024) zero_offsets3, View.ld_unit_zero (S := S1x100x1024) zero_offsets3]
  obtain ⟨e0, e1, e2, e3, e4, e5, e6, e7⟩ := block_indices t
  funext j
  obtain ⟨p, r, u, q, rfl⟩ : ∃ (p : Fin 1) (r : Fin 16) (u : Fin 100) (q : Fin 1024), j = ix4 p r u q :=
    ⟨j 0, j 1, j 2, j 3, eq_ix4 j⟩
  have hp : p.val = 0 := by have := p.isLt; omega
  show k2_pay1 (F := Ideal) (iblk2 V c 0 t) (iblk2 V c 1 t) (ix4 p r u q)
    = pairSum (encArr V c) (decArr V c) (((cfg2.win 2).blk t).view.emb (ix4 p r u q))
  refine (sum_apply (iblk2 V c 0 t) (iblk2 V c 1 t) p r u q).trans ?_
  unfold pairSum
  show encArr V c (((cfg2.win 0).blk t).view.emb (ix3 (0 : Fin 1) r q)) + decArr V c (((cfg2.win 1).blk t).view.emb (ix3 (0 : Fin 1) u q))
    = encArr V c (ix3 ((((cfg2.win 2).blk t).view.emb (ix4 p r u q)) 0) ((((cfg2.win 2).blk t).view.emb (ix4 p r u q)) 1) ((((cfg2.win 2).blk t).view.emb (ix4 p r u q)) 3))
      + decArr V c (ix3 ((((cfg2.win 2).blk t).view.emb (ix4 p r u q)) 0) ((((cfg2.win 2).blk t).view.emb (ix4 p r u q)) 2) ((((cfg2.win 2).blk t).view.emb (ix4 p r u q)) 3))
  have h0 : ((cfg2.win 0).blk t).view.emb (ix3 (0 : Fin 1) r q)
      = ix3 ((((cfg2.win 2).blk t).view.emb (ix4 p r u q)) 0) ((((cfg2.win 2).blk t).view.emb (ix4 p r u q)) 1) ((((cfg2.win 2).blk t).view.emb (ix4 p r u q)) 3) := by
    funext a; apply Fin.ext
    match a with
    | ⟨0, _⟩ => show win2_0.index t (0 : Fin 3) * 1 + 1 * 0 = win2_2.index t (0 : Fin 4) * 1 + 1 * p.val; omega
    | ⟨1, _⟩ => show win2_0.index t (1 : Fin 3) * 16 + 1 * r.val = win2_2.index t (1 : Fin 4) * 16 + 1 * r.val; omega
    | ⟨2, _⟩ => show win2_0.index t (2 : Fin 3) * 1024 + 1 * q.val = win2_2.index t (3 : Fin 4) * 1024 + 1 * q.val; omega
  have h1 : ((cfg2.win 1).blk t).view.emb (ix3 (0 : Fin 1) u q)
      = ix3 ((((cfg2.win 2).blk t).view.emb (ix4 p r u q)) 0) ((((cfg2.win 2).blk t).view.emb (ix4 p r u q)) 2) ((((cfg2.win 2).blk t).view.emb (ix4 p r u q)) 3) := by
    funext a; apply Fin.ext
    match a with
    | ⟨0, _⟩ => show win2_1.index t (0 : Fin 3) * 1 + 1 * 0 = win2_2.index t (0 : Fin 4) * 1 + 1 * p.val; omega
    | ⟨1, _⟩ => show win2_1.index t (1 : Fin 3) * 100 + 1 * u.val = win2_2.index t (2 : Fin 4) * 100 + 1 * u.val; omega
    | ⟨2, _⟩ => show win2_1.index t (2 : Fin 3) * 1024 + 1 * q.val = win2_2.index t (3 : Fin 4) * 1024 + 1 * q.val; omega
  rw [h0, h1]
  rfl

/-- An entry of the result is in point t's block iff each coordinate is in the block's range on its axis. -/
theorem mem_block (t : Fin cfg2.N) (i : S4x512x100x1024.Idx) :
    i ∈ ((cfg2.win 2).blk t).view.set ↔ ∀ a : Fin 4, win2_2.index t a * S1x16x100x1024.size a ≤ (i a).val
      ∧ (i a).val < win2_2.index t a * S1x16x100x1024.size a + S1x16x100x1024.size a := by
  show i ∈ ((View.whole main_v10).slice (win2_2.rect t)).set ↔ _
  rw [View.set_slice_whole, Rect.mem_set_unit]
  exact Iff.rfl

/-- The blocks tile the result: entry (b, t, u, q) is in the block of batch b and row block t / 16. -/
theorem covered (i : S4x512x100x1024.Idx) :
    ∃ t : Fin cfg2.N, (cfg2.win 2).flush t = true ∧ i ∈ ((cfg2.win 2).blk t).view.set := by
  have hi0 : (i 0).val < 4 := (i 0).isLt
  have hi1 : (i 1).val < 512 := (i 1).isLt
  have hi2 : (i 2).val < 100 := (i 2).isLt
  have hi3 : (i 3).val < 1024 := (i 3).isLt
  obtain ⟨t, ht⟩ := block_onto ⟨(i 0).val, hi0⟩ ⟨(i 1).val / 16, by omega⟩
  have q0 : win2_2.index t (0 : Fin 4) = (i 0).val := congrFun ht 0
  have q1 : win2_2.index t (1 : Fin 4) = (i 1).val / 16 := congrFun ht 1
  have q2 : win2_2.index t (2 : Fin 4) = 0 := congrFun ht 2
  have q3 : win2_2.index t (3 : Fin 4) = 0 := congrFun ht 3
  refine ⟨t, flush2_2 t, ?_⟩
  rw [mem_block]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 16 ≤ (i 1).val ∧ (i 1).val < win2_2.index t (1 : Fin 4) * 16 + 16; omega
  | ⟨2, _⟩ => show win2_2.index t (2 : Fin 4) * 100 ≤ (i 2).val ∧ (i 2).val < win2_2.index t (2 : Fin 4) * 100 + 100; omega
  | ⟨3, _⟩ => show win2_2.index t (3 : Fin 4) * 1024 ≤ (i 3).val ∧ (i 3).val < win2_2.index t (3 : Fin 4) * 1024 + 1024; omega

/-- After the region its result array is the pairwise sums of the two arrays it found. -/
theorem result_eq (c : Dev nD) : (dat2 V c).arrAt 2 cfg2.N = pairSum (encArr V c) (decArr V c) :=
  (dat2 V c).arrAt_eq_of_cover 2 _ (fun t _ => flushed_eq V c t) covered

end Cert.KernelIdeal.JointAdd

end
-- ==== Proof.JointValue.lean ====
import proofs.«177077_j25082609008778_1_alg».proof.Proof.JointHost
import proofs.«177077_j25082609008778_1_alg».proof.Proof.JointProj0
import proofs.«177077_j25082609008778_1_alg».proof.Proof.JointProj1
import proofs.«177077_j25082609008778_1_alg».proof.Proof.JointAdd

/-!
  The kernel program's result array after its three regions, as the joint logits of the three arguments.

  The buffers' contents are followed from boundary to boundary. The first region leaves the encoder projection (its
  2048 × 1024 product) and touches nothing else; the second finds the decoder's features and weight half as the host
  operations left them and leaves the 400 × 1024 product; the two reshapes between the regions read row b·512 + t as
  (b, t) and row b·100 + u as (b, u); the third region leaves the pairwise sums. Entry (b, t, u, q) of the result is
  therefore (Σ_k enc[b, t, k] · W[q, k]) + (Σ_k dec[b, u, k] · W[q, 512 + k]).
-/

open scoped BigOperators

noncomputable section

namespace Cert.KernelIdeal.JointValue

open Cert.KernelIdeal Cert.KernelIdeal.Gen Cert.JointSpec Cert.KernelIdeal.JointHost
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- After the first region the encoder projection's array is the product of what the region found. -/
theorem encProj_arr (c : Dev nD) : (V2 m ρ c main_v6 : S2048x1024.Idx → EReal)
    = JointProj0.matProd (JointProj0.featArr (V1 m ρ) c) (JointProj0.weightArr (V1 m ρ) c) :=
  (W2_arr m ρ c 2).trans (JointProj0.result_eq (V1 m ρ) c)

/-- The first region leaves the decoder's features and weight half as it found them. -/
theorem decFeat_kept (c : Dev nD) : (V2 m ρ c main_v5 : S400x512.Idx → EReal) = V1 m ρ c main_v5 :=
  W2_of_ne m ρ c main_v5 (by decide)
theorem decWeight_kept (c : Dev nD) : (V2 m ρ c main_v3 : S512x1024.Idx → EReal) = V1 m ρ c main_v3 :=
  W2_of_ne m ρ c main_v3 (by decide)

/-- After the second region the decoder projection's array is the product of what the region found, -/
theorem decProj_arr (c : Dev nD) : (V3 m ρ c main_v7 : S400x1024.Idx → EReal)
    = JointProj1.matProd (JointProj1.featArr (V2 m ρ) c) (JointProj1.weightArr (V2 m ρ) c) :=
  (W3_arr m ρ c 2).trans (JointProj1.result_eq (V2 m ρ) c)

/-- and the encoder projection's array is as the first region left it. -/
theorem encProj_kept (c : Dev nD) : (V3 m ρ c main_v6 : S2048x1024.Idx → EReal) = V2 m ρ c main_v6 :=
  W3_of_ne m ρ c main_v6 (by decide)

/-- The third region finds the two projections reshaped to one matrix per batch. -/
theorem encProj3_eq (c : Dev nD) : (V4 m ρ c main_v8 : S4x512x1024.Idx → EReal)
    = shapeCast S4x512x1024 (V3 m ρ c main_v6 : S2048x1024.Idx → EReal) shapeCasts_S2048x1024_S4x512x1024 := by
  show StableHlo.after hostOps2 (W3 m ρ c) (Proc.devRef .tc main_v8) = _
  after_results
  rfl
theorem decProj3_eq (c : Dev nD) : (V4 m ρ c main_v9 : S4x100x1024.Idx → EReal)
    = shapeCast S4x100x1024 (V3 m ρ c main_v7 : S400x1024.Idx → EReal) shapeCasts_S400x1024_S4x100x1024 := by
  show StableHlo.after hostOps2 (W3 m ρ c) (Proc.devRef .tc main_v9) = _
  after_results
  rfl

/-- The encoder projection as the third region finds it, at (b, t, q). -/
theorem encProj3_apply (c : Dev nD) (b : Fin 4) (t : Fin 512) (q : Fin 1024) :
    V4 m ρ c main_v8 (ix3 b t q)
      = encProj (m ((c : Thread nD τ).loc main_arg0)) (m ((c : Thread nD τ).loc main_arg2)) b t q := by
  have hb := b.isLt; have ht := t.isLt; have hq := q.isLt
  refine (congrFun (encProj3_eq m ρ c) (ix3 b t q)).trans ?_
  refine (shapeCast_apply _ _ (ix3 b t q) (ix2 (encFlat b t) q) ?_).trans ?_
  · rw [Shape.rowMajor_val_three, Shape.rowMajor_val_two]
    show (b.val * 512 + t.val) * 1024 + q.val = (b.val * 512 + t.val) * 1024 + q.val
    rfl
  refine (congrFun (encProj_kept m ρ c) (ix2 (encFlat b t) q)).trans ?_
  refine (congrFun (encProj_arr m ρ c) (ix2 (encFlat b t) q)).trans ?_
  show (_ : EReal) = _
  unfold JointProj0.matProd encProj
  refine Finset.sum_congr rfl fun k _ => ?_
  refine congrArg₂ (fun (x y : EReal) => x * y) ?_ ?_
  · exact (encFeat_apply m ρ c (encFlat b t) k).trans (by rw [encRow_encFlat])
  · exact encWeight_apply m ρ c k q

/-- The decoder projection as the third region finds it, at (b, u, q). -/
theorem decProj3_apply (c : Dev nD) (b : Fin 4) (u : Fin 100) (q : Fin 1024) :
    V4 m ρ c main_v9 (ix3 b u q)
      = decProj (m ((c : Thread nD τ).loc main_arg1)) (m ((c : Thread nD τ).loc main_arg2)) b u q := by
  have hb := b.isLt; have hu := u.isLt; have hq := q.isLt
  refine (congrFun (decProj3_eq m ρ c) (ix3 b u q)).trans ?_
  refine (shapeCast_apply _ _ (ix3 b u q) (ix2 (decFlat b u) q) ?_).trans ?_
  · rw [Shape.rowMajor_val_three, Shape.rowMajor_val_two]
    show (b.val * 100 + u.val) * 1024 + q.val = (b.val * 100 + u.val) * 1024 + q.val
    rfl
  refine (congrFun (decProj_arr m ρ c) (ix2 (decFlat b u) q)).trans ?_
  show (_ : EReal) = _
  unfold JointProj1.matProd decProj
  refine Finset.sum_congr rfl fun k _ => ?_
  refine congrArg₂ (fun (x y : EReal) => x * y) ?_ ?_
  · exact (congrFun (decFeat_kept m ρ c) (ix2 (decFlat b u) k)).trans
      ((decFeat_apply m ρ c (decFlat b u) k).trans (by rw [decRow_decFlat]))
  · exact (congrFun (decWeight_kept m ρ c) (ix2 k q)).trans (decWeight_apply m ρ c k q)

/-- THE RESULT: after the third region the result array holds the joint logits of the three arguments. -/
theorem result_eq (c : Dev nD) : (W5 m ρ c (Proc.devRef .tc main_v10) : S4x512x100x1024.Idx → EReal)
    = joint (m ((c : Thread nD τ).loc main_arg0)) (m ((c : Thread nD τ).loc main_arg1)) (m ((c : Thread nD τ).loc main_arg2)) := by
  refine ((W5_arr m ρ c 2).trans (JointAdd.result_eq (V4 m ρ) c)).trans ?_
  funext i
  obtain ⟨b, t, u, q, rfl⟩ : ∃ (b : Fin 4) (t : Fin 512) (u : Fin 100) (q : Fin 1024), i = ix4 b t u q :=
    ⟨i 0, i 1, i 2, i 3, eq_ix4 i⟩
  rw [joint_apply]
  unfold JointAdd.pairSum
  refine congrArg₂ (fun (x y : EReal) => x + y) ?_ ?_
  · exact encProj3_apply m ρ c b t q
  · exact decProj3_apply m ρ c b u q

end Cert.KernelIdeal.JointValue

end
-- ==== Proof.JointRef.lean ====
import proofs.«177077_j25082609008778_1_alg».proof.Proof.Gen.ReferenceIdeal.Read
import proofs.«177077_j25082609008778_1_alg».proof.Proof.JointSpec

/-!
  The reference computes the joint logits. Its two contractions read, at output entry (b, t, c) resp. (b, u, c), row
  (b, t) of the encoder's features against row c of the weight's left columns and row (b, u) of the decoder's against
  row c of the weight's right columns; the two broadcasts insert and then stretch a unit axis, so that the final sum at
  (b, t, u, c) adds the first contraction at (b, t, c) to the second at (b, u, c).
-/

open scoped BigOperators

noncomputable section

namespace Cert.ReferenceIdeal.JointRef

open Cert.ReferenceIdeal Cert.ReferenceIdeal.Read Idealize.ShloMosaic Idealize.ShloMosaic.ValueIdx Cert.JointSpec

/-- Through the two broadcasts, the encoder contraction's left operand is read at (b, t, k). -/
theorem enc_lhs_idx (b : Fin 4) (t : Fin 512) (u : Fin 100) (c : Fin 1024) (k : Fin 512) :
    lidx_main_v2 (idx_main_v4 (idx_main_v6 (ix4 b t u c))) k = ix3 b t k :=
  funext fun a => Fin.ext (by match a with | ⟨0, _⟩ => rfl | ⟨1, _⟩ => rfl | ⟨2, _⟩ => rfl)

/-- Its right operand, the left-column slice of the weight, is read at the weight's (c, k). -/
theorem enc_rhs_idx (b : Fin 4) (t : Fin 512) (u : Fin 100) (c : Fin 1024) (k : Fin 512) :
    idx_main_v0 (ridx_main_v2 (idx_main_v4 (idx_main_v6 (ix4 b t u c))) k) = ix2 c (lowCol k) :=
  funext fun a => Fin.ext (by match a with | ⟨0, _⟩ => rfl | ⟨1, _⟩ => rfl)

/-- Through the two broadcasts, the decoder contraction's left operand is read at (b, u, k). -/
theorem dec_lhs_idx (b : Fin 4) (t : Fin 512) (u : Fin 100) (c : Fin 1024) (k : Fin 512) :
    lidx_main_v3 (idx_main_v5 (idx_main_v7 (ix4 b t u c))) k = ix3 b u k :=
  funext fun a => Fin.ext (by match a with | ⟨0, _⟩ => rfl | ⟨1, _⟩ => rfl | ⟨2, _⟩ => rfl)

/-- Its right operand, the right-column slice of the weight, is read at the weight's (c, 512 + k). -/
theorem dec_rhs_idx (b : Fin 4) (t : Fin 512) (u : Fin 100) (c : Fin 1024) (k : Fin 512) :
    idx_main_v1 (ridx_main_v3 (idx_main_v5 (idx_main_v7 (ix4 b t u c))) k) = ix2 c (highCol k) :=
  funext fun a => Fin.ext (by match a with | ⟨0, _⟩ => rfl | ⟨1, _⟩ => rfl)

/-- The reference's result is the joint logits of its three arguments. -/
theorem result_eq (x0 : (⟨S4x512x512, .f32⟩ : BufTy).Contents (Elt Ideal)) (x1 : (⟨S4x100x512, .f32⟩ : BufTy).Contents (Elt Ideal))
    (x2 : (⟨S1024x1024, .f32⟩ : BufTy).Contents (Elt Ideal)) :
    val_main_v8 (F := Ideal) x0 x1 x2 = joint x0 x1 x2 := by
  funext i
  obtain ⟨b, t, u, c, rfl⟩ : ∃ (b : Fin 4) (t : Fin 512) (u : Fin 100) (c : Fin 1024), i = ix4 b t u c :=
    ⟨i 0, i 1, i 2, i 3, eq_ix4 i⟩
  rw [val_main_v8_apply, val_main_v6_apply, val_main_v4_apply, val_main_v2_apply, val_main_v7_apply, val_main_v5_apply,
    val_main_v3_apply, joint_apply]
  unfold encProj decProj
  refine congrArg₂ (fun (p q : EReal) => p + q) (Finset.sum_congr rfl fun k _ => ?_) (Finset.sum_congr rfl fun k _ => ?_)
  · rw [val_main_v0_apply, enc_lhs_idx, enc_rhs_idx]
  · rw [val_main_v1_apply, dec_lhs_idx, dec_rhs_idx]

end Cert.ReferenceIdeal.JointRef

end
-- ==== Proof.lean ====
/- The RNN-T joint network on one device: the encoder's features enc (4 × 512 × 512), the decoder's dec (4 × 100 × 512) and
   a weight W (1024 × 1024) give the logits
     joint[b, t, u, c] = (Σ_{k<512} enc[b, t, k] · W[c, k]) + (Σ_{k<512} dec[b, u, k] · W[c, 512 + k]).
   The kernel program flattens the features to matrices, cuts W into its two halves of columns and transposes them,
   multiplies in two row-blocked regions (the operands narrowed to bf16, which is the identity on the reals, into a zero
   accumulator) and adds the two products pairwise in a third region; the reference contracts enc and dec against the two
   column slices of W directly and adds through two broadcasts. Over the extended reals both are the function above: the
   two sides' sums range over the same index set in the same order, so no law beyond reading each operation at an index is
   needed, and the precondition is never opened. The ideal pass rewrote nothing, so the preservation claim is trivial. -/
import proofs.«177077_j25082609008778_1_alg».proof.Defs
import proofs.«177077_j25082609008778_1_alg».proof.Proof.Gen.Kernel
import proofs.«177077_j25082609008778_1_alg».proof.Proof.Gen.Kernel.Skeleton
import proofs.«177077_j25082609008778_1_alg».proof.Proof.Gen.Kernel.Launch
import proofs.«177077_j25082609008778_1_alg».proof.Proof.Gen.Kernel.Points
import proofs.«177077_j25082609008778_1_alg».proof.Proof.Gen.Kernel.Frame
import proofs.«177077_j25082609008778_1_alg».proof.Proof.Gen.KernelIdeal
import proofs.«177077_j25082609008778_1_alg».proof.Proof.Gen.KernelIdeal.Skeleton
import proofs.«177077_j25082609008778_1_alg».proof.Proof.Gen.KernelIdeal.Launch
import proofs.«177077_j25082609008778_1_alg».proof.Proof.Gen.KernelIdeal.Points
import proofs.«177077_j25082609008778_1_alg».proof.Proof.Gen.KernelIdeal.Frame
import proofs.«177077_j25082609008778_1_alg».proof.Proof.Gen.ReferenceIdeal
import proofs.«177077_j25082609008778_1_alg».proof.Proof.Gen.Pre_finite_inputs
import proofs.«177077_j25082609008778_1_alg».proof.Proof.Gen.ReferenceIdeal.Read
import proofs.«177077_j25082609008778_1_alg».proof.Proof.JointRun
import proofs.«177077_j25082609008778_1_alg».proof.Proof.JointValue
import proofs.«177077_j25082609008778_1_alg».proof.Proof.JointRef
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the printed kernel and its idealization. -/
theorem preserves : Cert.preserves_Kernel_KernelIdeal := trivial

/-- From memories agreeing on the three arguments both programs end with the joint logits of those arguments. -/
theorem algebraic : Cert.algebraic_KernelIdeal_ReferenceIdeal := by
  intro m ρ m' ρ' _ hagree
  refine ⟨fun c => Cert.JointSpec.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.JointValue.result_eq m ρ c), (h c).2⟩)
      (Cert.KernelIdeal.JointRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.JointRef.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
